-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x3200000 : Shape := ⟨2, ![2, 3200000]⟩
abbrev S64x64 : Shape := ⟨2, ![64, 64]⟩
abbrev S64 : Shape := ⟨1, ![64]⟩
abbrev S64x2 : Shape := ⟨2, ![64, 2]⟩
abbrev S2 : Shape := ⟨1, ![2]⟩
abbrev S_ : Shape := ⟨0, ![]⟩
abbrev S1x3200000 : Shape := ⟨2, ![1, 3200000]⟩
abbrev S3200000 : Shape := ⟨1, ![3200000]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_
  slices_S2x3200000_S1x3200000_0_0 : S2x3200000.Slices ![0, 0] S1x3200000
  shapeCasts_S1x3200000_S3200000 : S1x3200000.ShapeCasts S3200000
  bcast_S_S3200000 : S_.BroadcastsInDim S3200000 (![] : Fin 0 → Fin S3200000.rank)
  reducesTo_S3200000_S_d0 : S3200000.ReducesTo [0] S_

variable [Facts]

def fn_part2 {F : FTy → Type} [FloatOps F] (main_arg2 : IVec S2x3200000 32) (main_v33 : IVec S_ 1) : IVec S_ 1 :=
  let main_v34 : IVec S1x3200000 32 := (extractStridedSlice S1x3200000 ![0, 0] · slices_S2x3200000_S1x3200000_0_0) main_arg2
  let main_v35 : IVec S3200000 32 := shapeCast S3200000 main_v34 shapeCasts_S1x3200000_S3200000
  let main_c_12 : IVec S_ 32 := constantI S_ 32 4294867296#32
  let main_v36 : IVec S3200000 32 := broadcastInDim S3200000 ![] bcast_S_S3200000 main_c_12
  let main_v37 : IVec S3200000 1 := cmpi .sge main_v35 main_v36
  let main_c_13 : IVec S_ 1 := constantI S_ 1 1#1
  let main_v38 : IVec S_ 1 := (fun x v => Host.reduce IntOp.andi x v reducesTo_S3200000_S_d0 h_S_) main_v37 main_c_13
  let main_v39 : IVec S_ 1 := andi main_v33 main_v38
  let main_v40 : IVec S1x3200000 32 := (extractStridedSlice S1x3200000 ![0, 0] · slices_S2x3200000_S1x3200000_0_0) main_arg2
  let main_v41 : IVec S3200000 32 := shapeCast S3200000 main_v40 shapeCasts_S1x3200000_S3200000
  let main_c_14 : IVec S_ 32 := constantI S_ 32 100000#32
  let main_v42 : IVec S3200000 32 := broadcastInDim S3200000 ![] bcast_S_S3200000 main_c_14
  let main_v43 : IVec S3200000 1 := cmpi .slt main_v41 main_v42
  let main_c_15 : IVec S_ 1 := constantI S_ 1 1#1
  let main_v44 : IVec S_ 1 := (fun x v => Host.reduce IntOp.andi x v reducesTo_S3200000_S_d0 h_S_) main_v43 main_c_15
  let main_v45 : IVec S_ 1 := andi main_v39 main_v44
  main_v45

def fn_part1 {F : FTy → Type} [FloatOps F] (main_arg2 : IVec S2x3200000 32) (main_arg5 : FVec F S64x64 .f32) (main_arg6 : FVec F S64x2 .f32) (main_arg7 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x2 .f32 := Host.absf main_arg6
  let main_cst_8 : FVec F S_ .f32 := constant S_ .f32 0x7F800000#32
  let main_v25 : FVec F S64x2 .f32 := broadcastInDim S64x2 ![] bcast_S_S64x2 main_cst_8
  let main_v26 : IVec S64x2 1 := cmpf .olt main_v24 main_v25
  let main_c_9 : IVec S_ 1 := constantI S_ 1 1#1
  let main_v27 : IVec S_ 1 := (fun x v => Host.reduce IntOp.andi x v reducesTo_S64x2_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  fn_part2 (F := F) main_arg2 main_v33

def fn {F : FTy → Type} [FloatOps F] (main_arg0 : FVec F S100000x32 .f32) (main_arg1 : FVec F S100000x32 .f32) (main_arg2 : IVec S2x3200000 32) (main_arg3 : FVec F S64x64 .f32) (main_arg4 : FVec F S64 .f32) (main_arg5 : FVec F S64x64 .f32) (main_arg6 : FVec F S64x2 .f32) (main_arg7 : FVec F S2 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S100000x32 .f32 := Host.absf main_arg1
  let main_cst_0 : FVec F S_ .f32 := constant S_ .f32 0x7F800000#32
  let main_v5 : FVec F S100000x32 .f32 := broadcastInDim S100000x32 ![] bcast_S_S100000x32 main_cst_0
  let main_v6 : IVec S100000x32 1 := cmpf .olt main_v4 main_v5
  let main_c_1 : IVec S_ 1 := constantI S_ 1 1#1
  let main_v7 : IVec S_ 1 := (fun x v => Host.reduce IntOp.andi x v reducesTo_S100000x32_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg2 main_arg5 main_arg6 main_arg7 main_v13 main_v16
-- ==== Kernel.lean ====
abbrev S100000x32 : Shape := ⟨2, ![100000, 32]⟩
abbrev S2x3200000 : Shape := ⟨2, ![2, 3200000]⟩
abbrev S64x64 : Shape := ⟨2, ![64, 64]⟩
abbrev S64 : Shape := ⟨1, ![64]⟩
abbrev S64x2 : Shape := ⟨2, ![64, 2]⟩
abbrev S2 : Shape := ⟨1, ![2]⟩
abbrev S100000x64 : Shape := ⟨2, ![100000, 64]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S1 : Shape := ⟨1, ![1]⟩
abbrev S1x1 : Shape := ⟨2, ![1, 1]⟩
abbrev S3200000x64 : Shape := ⟨2, ![3200000, 64]⟩
abbrev S1x64 : Shape := ⟨2, ![1, 64]⟩
abbrev S1x2 : Shape := ⟨2, ![1, 2]⟩
abbrev S100000x2 : Shape := ⟨2, ![100000, 2]⟩
abbrev S10000x64 : Shape := ⟨2, ![10000, 64]⟩
abbrev S10000x2 : Shape := ⟨2, ![10000, 2]⟩

abbrev nBuf : Space → Nat
  | .hbm => 43
  | .vmem => 11
  | .smem => 0
  | _ => 0

abbrev bufTy : (tb : Table) → Fin (tcTables nBuf tb) → BufTy
  | .hbm, ⟨0, _⟩ => ⟨S100000x32, .f32⟩
  | .hbm, ⟨1, _⟩ => ⟨S100000x32, .f32⟩
  | .hbm, ⟨2, _⟩ => ⟨S2x3200000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x2, .f32⟩
  | .hbm, ⟨7, _⟩ => ⟨S2, .f32⟩
  | .hbm, ⟨8, _⟩ => ⟨S100000x64, .f32⟩
  | .hbm, ⟨9, _⟩ => ⟨S1x3200000, .i32⟩
  | .hbm, ⟨10, _⟩ => ⟨S3200000, .i32⟩
  | .hbm, ⟨11, _⟩ => ⟨S1x3200000, .i32⟩
  | .hbm, ⟨12, _⟩ => ⟨S3200000, .i32⟩
  | .hbm, ⟨13, _⟩ => ⟨S_, .i32⟩
  | .hbm, ⟨14, _⟩ => ⟨S3200000, .i32⟩
  | .hbm, ⟨15, _⟩ => ⟨S3200000, .i1⟩
  | .hbm, ⟨16, _⟩ => ⟨S_, .i32⟩
  | .hbm, ⟨17, _⟩ => ⟨S3200000, .i32⟩
  | .hbm, ⟨18, _⟩ => ⟨S3200000, .i32⟩
  | .hbm, ⟨19, _⟩ => ⟨S3200000, .i32⟩
  | .hbm, ⟨20, _⟩ => ⟨S3200000x1, .i32⟩
  | .hbm, ⟨21, _⟩ => ⟨S1, .i32⟩
  | .hbm, ⟨22, _⟩ => ⟨S_, .i32⟩
  | .hbm, ⟨23, _⟩ => ⟨S3200000x1, .i32⟩
  | .hbm, ⟨24, _⟩ => ⟨S3200000x1, .i1⟩
  | .hbm, ⟨25, _⟩ => ⟨S1x1, .i32⟩
  | .hbm, ⟨26, _⟩ => ⟨S3200000x1, .i32⟩
  | .hbm, ⟨27, _⟩ => ⟨S3200000x1, .i1⟩
  | .hbm, ⟨28, _⟩ => ⟨S3200000x1, .i1⟩
  | .hbm, ⟨29, _⟩ => ⟨S_, .i1⟩
  | .hbm, ⟨30, _⟩ => ⟨S3200000, .i1⟩
  | .hbm, ⟨31, _⟩ => ⟨S3200000x64, .f32⟩
  | .hbm, ⟨32, _⟩ => ⟨S3200000x64, .i1⟩
  | .hbm, ⟨33, _⟩ => ⟨S_, .f32⟩
  | .hbm, ⟨34, _⟩ => ⟨S3200000x64, .f32⟩
  | .hbm, ⟨35, _⟩ => ⟨S3200000x64, .f32⟩
  | .hbm, ⟨36, _⟩ => ⟨S_, .f32⟩
  | .hbm, ⟨37, _⟩ => ⟨S100000x64, .f32⟩
  | .hbm, ⟨38, _⟩ => ⟨S3200000x1, .i32⟩
  | .hbm, ⟨39, _⟩ => ⟨S100000x64, .f32⟩
  | .hbm, ⟨40, _⟩ => ⟨S1x64, .f32⟩
  | .hbm, ⟨41, _⟩ => ⟨S1x2, .f32⟩
  | .hbm, ⟨42, _⟩ => ⟨S100000x2, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S64x2, .f32⟩
  | .local _ .vmem, ⟨8, _⟩ => ⟨S1x2, .f32⟩
  | .local _ .vmem, ⟨9, _⟩ => ⟨S10000x2, .f32⟩
  | .local _ .vmem, ⟨10, _⟩ => ⟨S10000x2, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v5 : Ref sig .tc := ⟨.hbm, 35, rfl⟩
abbrev main_cst : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S10000x2 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S100000x32_S100000x32_S100000x64_d1 : Shape.Concatenates [S100000x32, S100000x32] S100000x64 1
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S3200000x1 : S_.BroadcastsInDim S3200000x1 (![] : Fin 0 → Fin S3200000x1.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  reducesTo_S3200000x1_S3200000_d1 : S3200000x1.ReducesTo [1] S3200000
  h_S_ : 0 < S_.numel
  bcast_S3200000_S3200000x64_0 : S3200000.BroadcastsInDim S3200000x64 (![0] : Fin 1 → Fin S3200000x64.rank)
  bcast_S_S3200000x64 : S_.BroadcastsInDim S3200000x64 (![] : Fin 0 → Fin S3200000x64.rank)
  bcast_S_S100000x64 : S_.BroadcastsInDim S100000x64 (![] : Fin 0 → Fin S100000x64.rank)
  shapeCasts_S64_S1x64 : S64.ShapeCasts S1x64
  shapeCasts_S2_S1x2 : S2.ShapeCasts S1x2
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64x2_S64x2_0_0 : ∀ a, (![0, 0] : Fin 2 → Nat) a + S64x2.size a ≤ S64x2.size a
  h_S64x2 : 0 < S64x2.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x64_S10000x64 : S1x64.Broadcasts S10000x64
  broadcasts_S1x2_S10000x2 : S1x2.Broadcasts S10000x2
  inb_S10000x2_S10000x2_0_0 : ∀ a, (![0, 0] : Fin 2 → Nat) a + S10000x2.size a ≤ S10000x2.size a
  h_S10000x2 : 0 < S10000x2.numel
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S10000x64_S64x64_S10000x64_1_0_0_1_n_n_wf : DotDims.WF S10000x64 S64x64 S10000x64 [1] [0] [0] [1] [] []
  dot_S10000x64_S64x2_S10000x2_1_0_0_1_n_n_wf : DotDims.WF S10000x64 S64x2 S10000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x2.size a ≤ S64x2.size a
  hwx0_5 : ∀ i : grid0.Coords, EltTy.bits .f32 = 32 ∨ (Rect.block (s := S64x2) S64x2.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2.size a ≤ S1x2.size a
  hwx0_6 : ∀ i : grid0.Coords, EltTy.bits .f32 = 32 ∨ (Rect.block (s := S1x2) S1x2.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S10000x2.size a ≤ S100000x2.size a
  hwx0_7 : ∀ i : grid0.Coords, EltTy.bits .f32 = 32 ∨ (Rect.block (s := S100000x2) S10000x2.size (cc0_transform_7 i) (hinb0_7 i)).WholeWords (EltTy.packing .f32)

variable [Facts₀]

def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x2_S10000x2_1_0_0_1_n_n : DotDims S10000x64 S64x2 S10000x2 where
  lhsContracting := [1]
  rhsContracting := [0]
  lhsNonContracting := [0]
  rhsNonContracting := [1]
  lhsBatch := []
  rhsBatch := []
  wf := dot_S10000x64_S64x2_S10000x2_1_0_0_1_n_n_wf

abbrev win0_0 : Pipeline.Window sig grid0 :=
  Pipeline.Window.ofSpec (Memref.whole main_v0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S64x2.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x2.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S10000x2.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x32 : Shape := ⟨2, ![100000, 32]⟩
abbrev S2x3200000 : Shape := ⟨2, ![2, 3200000]⟩
abbrev S64x64 : Shape := ⟨2, ![64, 64]⟩
abbrev S64 : Shape := ⟨1, ![64]⟩
abbrev S64x2 : Shape := ⟨2, ![64, 2]⟩
abbrev S2 : Shape := ⟨1, ![2]⟩
abbrev S100000x64 : Shape := ⟨2, ![100000, 64]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x64 : Shape := ⟨2, ![3200000, 64]⟩
abbrev S1x64 : Shape := ⟨2, ![1, 64]⟩
abbrev S100000x2 : Shape := ⟨2, ![100000, 2]⟩
abbrev S1x2 : Shape := ⟨2, ![1, 2]⟩

abbrev nBuf : Space → Nat
  | .hbm => 36
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S100000x32, .f32⟩
  | .hbm, ⟨2, _⟩ => ⟨S2x3200000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x2, .f32⟩
  | .hbm, ⟨7, _⟩ => ⟨S2, .f32⟩
  | .hbm, ⟨8, _⟩ => ⟨S100000x64, .f32⟩
  | .hbm, ⟨9, _⟩ => ⟨S1x3200000, .i32⟩
  | .hbm, ⟨10, _⟩ => ⟨S3200000, .i32⟩
  | .hbm, ⟨11, _⟩ => ⟨S1x3200000, .i32⟩
  | .hbm, ⟨12, _⟩ => ⟨S3200000, .i32⟩
  | .hbm, ⟨13, _⟩ => ⟨S_, .i32⟩
  | .hbm, ⟨14, _⟩ => ⟨S3200000, .i32⟩
  | .hbm, ⟨15, _⟩ => ⟨S3200000, .i1⟩
  | .hbm, ⟨16, _⟩ => ⟨S_, .i32⟩
  | .hbm, ⟨17, _⟩ => ⟨S3200000, .i32⟩
  | .hbm, ⟨18, _⟩ => ⟨S3200000, .i32⟩
  | .hbm, ⟨19, _⟩ => ⟨S3200000, .i32⟩
  | .hbm, ⟨20, _⟩ => ⟨S3200000x1, .i32⟩
  | .hbm, ⟨21, _⟩ => ⟨S3200000x64, .f32⟩
  | .hbm, ⟨22, _⟩ => ⟨S_, .f32⟩
  | .hbm, ⟨23, _⟩ => ⟨S100000x64, .f32⟩
  | .hbm, ⟨24, _⟩ => ⟨S3200000x1, .i32⟩
  | .hbm, ⟨25, _⟩ => ⟨S100000x64, .f32⟩
  | .hbm, ⟨26, _⟩ => ⟨S100000x64, .f32⟩
  | .hbm, ⟨27, _⟩ => ⟨S1x64, .f32⟩
  | .hbm, ⟨28, _⟩ => ⟨S100000x64, .f32⟩
  | .hbm, ⟨29, _⟩ => ⟨S100000x64, .f32⟩
  | .hbm, ⟨30, _⟩ => ⟨S100000x64, .f32⟩
  | .hbm, ⟨31, _⟩ => ⟨S100000x64, .f32⟩
  | .hbm, ⟨32, _⟩ => ⟨S100000x2, .f32⟩
  | .hbm, ⟨33, _⟩ => ⟨S1x2, .f32⟩
  | .hbm, ⟨34, _⟩ => ⟨S100000x2, .f32⟩
  | .hbm, ⟨35, _⟩ => ⟨S100000x2, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]

class Facts₀ : Prop where
  concatenates_S100000x32_S100000x32_S100000x64_d1 : Shape.Concatenates [S100000x32, S100000x32] S100000x64 1
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x64_S100000x64_1_0_0_1_n_n_wf : DotDims.WF S100000x64 S64x64 S100000x64 [1] [0] [0] [1] [] []
  dot_S100000x64_S64x2_S100000x2_1_0_0_1_n_n_wf : DotDims.WF S100000x64 S64x2 S100000x2 [1] [0] [0] [1] [] []

variable [Facts₀]

def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf

class Facts : Prop extends Facts₀ where

variable [Facts]
-- ==== Proof.HeadBlock.lean ====
/-
  One block of the head, read at an entry. The body's stored value for a block of 10000 nodes is

      out[p, o] = Σ_k ((Σ_j agg[p, j] · wrel[j, k] + Σ_j h[p, j] · wroot[j, k]) + brel[0, k]) · wpred[k, o] + bpred[0, o]

  on the extended reals: each matrix product into a zero accumulator is the plain sum over the contracted axis, the
  changes of float format are the identity, and a one-row bias broadcast down the rows reads its row 0.
-/
import proofs.«408362_j75943611728684_3_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Block

open Cert.KernelIdeal Cert.KernelIdeal.Gen Idealize.ShloMosaic Idealize.ShloMosaic.ValueIdx

/-! ## The 64 × 64 products: operand indices of the contraction -/

theorem lhs_sq_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_sq_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs_sq_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_sq_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A block's product with a 64 × 64 weight, into the zero accumulator, at row `p` and column `q`: the sum over the
    64 contracted features. -/
theorem matmul_sq_apply {φ₁ φ₂ : FTy} (prec : Option ContractPrecision) (l : FVec Ideal S10000x64 φ₁) (r : FVec Ideal S64x64 φ₂)
    (p : Fin 10000) (q : Fin 64) :
    matmul dot_S10000x64_S64x64_S10000x64_1_0_0_1_n_n prec l r (constant (F := Ideal) S10000x64 .f32 0x00000000#32) (ix2 p q)
      = ∑ k : Fin 64, l (ix2 p k) * r (ix2 k q) := by
  show FloatOps.matmul dot_S10000x64_S64x64_S10000x64_1_0_0_1_n_n prec l r (constant (F := Ideal) S10000x64 .f32 0x00000000#32) (ix2 p q) = _
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p q) ((ValueIdx.contrEquiv1 dot_S10000x64_S64x64_S10000x64_1_0_0_1_n_n 64 rfl rfl).symm k) = ix2 p k := funext fun a => Fin.ext (by
    match a with
    | ⟨0, _⟩ => exact lhs_sq_0 _ _
    | ⟨1, _⟩ => exact (lhs_sq_1 _ _).trans hk)
  have er : dot_S10000x64_S64x64_S10000x64_1_0_0_1_n_n.rhsIdx (ix2 p q) ((ValueIdx.contrEquiv1 dot_S10000x64_S64x64_S10000x64_1_0_0_1_n_n 64 rfl rfl).symm k) = ix2 k q := funext fun a => Fin.ext (by
    match a with
    | ⟨0, _⟩ => exact (rhs_sq_0 _ _).trans hk
    | ⟨1, _⟩ => exact rhs_sq_1 _ _)
  rw [el, er]

/-! ## The 64 × 2 projection: operand indices of the contraction -/

theorem lhs_pr_0 (i : S10000x2.Idx) (q : dot_S10000x64_S64x2_S10000x2_1_0_0_1_n_n.contr.Idx) :
    (dot_S10000x64_S64x2_S10000x2_1_0_0_1_n_n.lhsIdx i q 0).val = (i 0).val := by
  unfold DotDims.lhsIdx
  rw [dif_neg (show ¬(0 : Fin S10000x64.rank) ∈ dot_S10000x64_S64x2_S10000x2_1_0_0_1_n_n.lhsBatch by decide), dif_pos (show (0 : Fin S10000x64.rank) ∈ dot_S10000x64_S64x2_S10000x2_1_0_0_1_n_n.lhsNonContracting by decide)]
  rfl
theorem lhs_pr_1 (i : S10000x2.Idx) (q : dot_S10000x64_S64x2_S10000x2_1_0_0_1_n_n.contr.Idx) :
    (dot_S10000x64_S64x2_S10000x2_1_0_0_1_n_n.lhsIdx i q 1).val = (q ⟨0, by decide⟩).val :=
  dot_S10000x64_S64x2_S10000x2_1_0_0_1_n_n.lhsIdx_val_of_single rfl i q
theorem rhs_pr_0 (i : S10000x2.Idx) (q : dot_S10000x64_S64x2_S10000x2_1_0_0_1_n_n.contr.Idx) :
    (dot_S10000x64_S64x2_S10000x2_1_0_0_1_n_n.rhsIdx i q 0).val = (q ⟨0, by decide⟩).val :=
  dot_S10000x64_S64x2_S10000x2_1_0_0_1_n_n.rhsIdx_val_of_single rfl i q
theorem rhs_pr_1 (i : S10000x2.Idx) (q : dot_S10000x64_S64x2_S10000x2_1_0_0_1_n_n.contr.Idx) :
    (dot_S10000x64_S64x2_S10000x2_1_0_0_1_n_n.rhsIdx i q 1).val = (i 1).val := by
  unfold DotDims.rhsIdx
  rw [dif_neg (show ¬(1 : Fin S64x2.rank) ∈ dot_S10000x64_S64x2_S10000x2_1_0_0_1_n_n.rhsBatch by decide), dif_pos (show (1 : Fin S64x2.rank) ∈ dot_S10000x64_S64x2_S10000x2_1_0_0_1_n_n.rhsNonContracting by decide)]
  rfl

/-- A block's product with the 64 × 2 projection, into the zero accumulator, at row `p` and column `o`. -/
theorem matmul_pr_apply {φ₁ φ₂ : FTy} (prec : Option ContractPrecision) (l : FVec Ideal S10000x64 φ₁) (r : FVec Ideal S64x2 φ₂)
    (p : Fin 10000) (o : Fin 2) :
    matmul dot_S10000x64_S64x2_S10000x2_1_0_0_1_n_n prec l r (constant (F := Ideal) S10000x2 .f32 0x00000000#32) (ix2 p o)
      = ∑ k : Fin 64, l (ix2 p k) * r (ix2 k o) := by
  show FloatOps.matmul dot_S10000x64_S64x2_S10000x2_1_0_0_1_n_n prec l r (constant (F := Ideal) S10000x2 .f32 0x00000000#32) (ix2 p o) = _
  rw [Ideal.matmul_constant_zero_apply, ← Equiv.sum_comp (ValueIdx.contrEquiv1 dot_S10000x64_S64x2_S10000x2_1_0_0_1_n_n 64 rfl rfl).symm]
  refine Finset.sum_congr rfl fun k _ => ?_
  have hk := ValueIdx.contrEquiv1_symm_val dot_S10000x64_S64x2_S10000x2_1_0_0_1_n_n 64 rfl rfl k
  have el : dot_S10000x64_S64x2_S10000x2_1_0_0_1_n_n.lhsIdx (ix2 p o) ((ValueIdx.contrEquiv1 dot_S10000x64_S64x2_S10000x2_1_0_0_1_n_n 64 rfl rfl).symm k) = ix2 p k := funext fun a => Fin.ext (by
    match a with
    | ⟨0, _⟩ => exact lhs_pr_0 _ _
    | ⟨1, _⟩ => exact (lhs_pr_1 _ _).trans hk)
  have er : dot_S10000x64_S64x2_S10000x2_1_0_0_1_n_n.rhsIdx (ix2 p o) ((ValueIdx.contrEquiv1 dot_S10000x64_S64x2_S10000x2_1_0_0_1_n_n 64 rfl rfl).symm k) = ix2 k o := funext fun a => Fin.ext (by
    match a with
    | ⟨0, _⟩ => exact (rhs_pr_0 _ _).trans hk
    | ⟨1, _⟩ => exact rhs_pr_1 _ _)
  rw [el, er]

/-! ## The one-row biases broadcast down the rows -/

/-- The 1 × 64 bias broadcast over 10000 rows reads its row 0 at every row. -/
theorem bias64_apply {α : Type} (b : S1x64.Idx → α) (p : Fin 10000) (k : Fin 64) :
    broadcastTo S10000x64 b broadcasts_S1x64_S10000x64 (ix2 p k) = b (ix2 0 k) :=
  broadcastTo_apply b broadcasts_S1x64_S10000x64 (ix2 p k) (ix2 0 k) (fun a => match a with
    | ⟨0, _⟩ => by show 0 = if (1 : Nat) = 1 then 0 else p.val; rw [if_pos rfl]
    | ⟨1, _⟩ => by show k.val = if (64 : Nat) = 1 then 0 else k.val; rw [if_neg (by decide)])

/-- The 1 × 2 bias broadcast over 10000 rows reads its row 0 at every row. -/
theorem bias2_apply {α : Type} (b : S1x2.Idx → α) (p : Fin 10000) (o : Fin 2) :
    broadcastTo S10000x2 b broadcasts_S1x2_S10000x2 (ix2 p o) = b (ix2 0 o) :=
  broadcastTo_apply b broadcasts_S1x2_S10000x2 (ix2 p o) (ix2 0 o) (fun a => match a with
    | ⟨0, _⟩ => by show 0 = if (1 : Nat) = 1 then 0 else p.val; rw [if_pos rfl]
    | ⟨1, _⟩ => by show o.val = if (2 : Nat) = 1 then 0 else o.val; rw [if_neg (by decide)])

/-! ## The stored value at an entry -/

/-- The body's stored value at row `p`, column `o` of its block, from the blocks it loads: `hb` the nodes' own features,
    `ab` the aggregated ones, the weights and the two one-row biases. -/
theorem pay_apply (hb ab : FVec Ideal S10000x64 .f32) (wrel wroot : FVec Ideal S64x64 .f32) (wpred : FVec Ideal S64x2 .f32)
    (brel : FVec Ideal S1x64 .f32) (bpred : FVec Ideal S1x2 .f32) (p : Fin 10000) (o : Fin 2) :
    k0_pay1 (F := Ideal) hb ab wrel wroot wpred brel bpred (ix2 p o)
      = (∑ k : Fin 64, ((∑ j : Fin 64, ab (ix2 p j) * wrel (ix2 j k) + ∑ j : Fin 64, hb (ix2 p j) * wroot (ix2 j k)) + brel (ix2 0 k)) * wpred (ix2 k o))
        + bpred (ix2 0 o) := by
  unfold k0_pay1
  simp only [shapeCast_self]
  rw [addf_apply, matmul_pr_apply, bias2_apply]
  congr 1
  refine Finset.sum_congr rfl fun k _ => ?_
  rw [addf_apply, addf_apply, matmul_sq_apply, matmul_sq_apply, bias64_apply]
  rfl

end Cert.KernelIdeal.Block

end
-- ==== Proof.HeadSpec.lean ====
/-
  The graph-convolution head as one function of whole arrays, index by index, on the extended reals.

  For node features `h` and aggregated neighbour features `agg` (both 100000 × 64), weights `wrel`, `wroot` (64 × 64),
  `wpred` (64 × 2) and biases `brel` (64), `bpred` (2):

      conv[r, k] = (Σ_j agg[r, j] · wrel[j, k]  +  Σ_j h[r, j] · wroot[j, k])  +  brel[k]
      out[r, o]  = Σ_k conv[r, k] · wpred[k, o]  +  bpred[o]

  The three-term sum inside `conv` may be taken in either order: addition of extended reals is commutative and
  associative (no finiteness is needed for that), so `(a + b) + c = (a + c) + b`.
-/
import Idealize.ShloMosaic.Lib.ValueIdx

noncomputable section

open scoped BigOperators

namespace Cert.GraphHead

open Idealize.ShloMosaic Idealize.ShloMosaic.ValueIdx

/-- The convolution row entry: the aggregated row through `wrel`, plus the node's own row through `wroot`, plus the bias. -/
def conv (h agg : (⟨2, ![100000, 64]⟩ : Shape).Idx → EReal) (wrel wroot : (⟨2, ![64, 64]⟩ : Shape).Idx → EReal)
    (brel : (⟨1, ![64]⟩ : Shape).Idx → EReal) (r : Fin 100000) (k : Fin 64) : EReal :=
  (∑ j : Fin 64, agg (ix2 r j) * wrel (ix2 j k) + ∑ j : Fin 64, h (ix2 r j) * wroot (ix2 j k)) + brel (ix1 k)

/-- The head's output: the convolution row projected through `wpred`, plus the prediction bias. -/
def head (h agg : (⟨2, ![100000, 64]⟩ : Shape).Idx → EReal) (wrel wroot : (⟨2, ![64, 64]⟩ : Shape).Idx → EReal)
    (brel : (⟨1, ![64]⟩ : Shape).Idx → EReal) (wpred : (⟨2, ![64, 2]⟩ : Shape).Idx → EReal)
    (bpred : (⟨1, ![2]⟩ : Shape).Idx → EReal) : (⟨2, ![100000, 2]⟩ : Shape).Idx → EReal :=
  fun i => (∑ k : Fin 64, conv h agg wrel wroot brel (i 0) k * wpred (ix2 k (i 1))) + bpred (ix1 (i 1))

/-- The same entry with the bias added before the node's own term. -/
theorem conv_bias_first (h agg : (⟨2, ![100000, 64]⟩ : Shape).Idx → EReal) (wrel wroot : (⟨2, ![64, 64]⟩ : Shape).Idx → EReal)
    (brel : (⟨1, ![64]⟩ : Shape).Idx → EReal) (r : Fin 100000) (k : Fin 64) :
    (∑ j : Fin 64, agg (ix2 r j) * wrel (ix2 j k) + brel (ix1 k)) + ∑ j : Fin 64, h (ix2 r j) * wroot (ix2 j k)
      = conv h agg wrel wroot brel r k := by
  unfold conv
  exact add_right_comm _ _ _

end Cert.GraphHead

end
-- ==== Proof.HeadValue.lean ====
/-
  The kernel's result array as one function of what the launch finds in its windows' arrays.

  Point `t` of the 10-point grid handles nodes 10000·t … 10000·t + 9999: it reads those rows of the node features and
  of the aggregated features, the whole weight matrices and the two one-row biases, and writes those rows of the output.
  Its stored block, entry by entry, is the head's formula at the node's global row; the ten row blocks tile the output,
  so the whole array ends holding the head of the launch-time arrays.
-/
import proofs.«408362_j75943611728684_3_alg».proof.Proof.Gen.KernelIdeal.Value
import proofs.«408362_j75943611728684_3_alg».proof.Proof.HeadBlock
import proofs.«408362_j75943611728684_3_alg».proof.Proof.HeadSpec
import Idealize.ShloMosaic.Lib.Pipeline.Value

noncomputable section

open scoped BigOperators

namespace Cert.KernelIdeal.Hand

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The head over arrays shaped as the launch stages them: the biases are one-row matrices. -/
def headOf (hA aA : S100000x64.Idx → EReal) (wrel wroot : S64x64.Idx → EReal) (b1 : S1x64.Idx → EReal)
    (wp : S64x2.Idx → EReal) (b2 : S1x2.Idx → EReal) : S100000x2.Idx → EReal :=
  Cert.GraphHead.head hA aA wrel wroot (fun k => b1 (ix2 0 (k 0))) wp (fun o => b2 (ix2 0 (o 0)))

/-- The printed index maps over the grid: the two row-blocked inputs move with the output's row block, every other
    block index is zero, and the output's row block is below 10. -/
theorem idx_facts : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (1 : Fin 2) = 0 ∧ win0_7.index t (0 : Fin 2) < 10 :=
  (by decide +kernel : ∀ t : Fin grid0.N, _)

/-- Every row block of the output is some point's. -/
theorem idx_onto : ∀ q : Fin 10, ∃ t : Fin cfg0.N, win0_7.index t (0 : Fin 2) = q.val :=
  (by decide +kernel : ∀ q : Fin 10, ∃ t : Fin grid0.N, win0_7.index t (0 : Fin 2) = q.val)

/-- The global row of row `p` of point `t`'s block. -/
def rowAt (t : Fin cfg0.N) (p : Fin 10000) : Fin 100000 :=
  ⟨win0_7.index t (0 : Fin 2) * 10000 + p.val, by have := (idx_facts t).2.2.2.2.2.2.2.2.2.2.2.2.2.2.2; have := p.isLt; omega⟩

/-! ## A window's block of ANY array, read at an entry, is the array at the global entry -/

section Blocks
variable {c : Dev nD}

theorem rows_feats (A : Buf (Elt Ideal) ((c : Thread nD τ).loc (Pipeline.arrRef spec0 (0 : Fin cfg0.W)))) (t : Fin cfg0.N)
    (p : Fin 10000) (j : Fin 64) :
    (((cfg0.win 0).blk t).view.read (Elt Ideal) A : Vec Ideal S10000x64 .f32) (ix2 p j)
      = (A : S100000x64.Idx → EReal) (ix2 (rowAt t p) j) := by
  obtain ⟨e00, e01, -⟩ := idx_facts t
  rewrite [View.read_apply]
  refine congrArg A ?_
  funext a; apply Fin.ext
  match a with
  | ⟨0, _⟩ => show win0_0.index t (0 : Fin 2) * 10000 + 1 * p.val = win0_7.index t (0 : Fin 2) * 10000 + p.val; rw [e00]; omega
  | ⟨1, _⟩ => show win0_0.index t (1 : Fin 2) * 64 + 1 * j.val = j.val; rw [e01]; omega

theorem rows_agg (A : Buf (Elt Ideal) ((c : Thread nD τ).loc (Pipeline.arrRef spec0 (1 : Fin cfg0.W)))) (t : Fin cfg0.N)
    (p : Fin 10000) (j : Fin 64) :
    (((cfg0.win 1).blk t).view.read (Elt Ideal) A : Vec Ideal S10000x64 .f32) (ix2 p j)
      = (A : S100000x64.Idx → EReal) (ix2 (rowAt t p) j) := by
  obtain ⟨-, -, e10, e11, -⟩ := idx_facts t
  rewrite [View.read_apply]
  refine congrArg A ?_
  funext a; apply Fin.ext
  match a with
  | ⟨0, _⟩ => show win0_1.index t (0 : Fin 2) * 10000 + 1 * p.val = win0_7.index t (0 : Fin 2) * 10000 + p.val; rw [e10]; omega
  | ⟨1, _⟩ => show win0_1.index t (1 : Fin 2) * 64 + 1 * j.val = j.val; rw [e11]; omega

theorem whole_wrel (A : Buf (Elt Ideal) ((c : Thread nD τ).loc (Pipeline.arrRef spec0 (2 : Fin cfg0.W)))) (t : Fin cfg0.N)
    (j k : Fin 64) :
    (((cfg0.win 2).blk t).view.read (Elt Ideal) A : Vec Ideal S64x64 .f32) (ix2 j k) = (A : S64x64.Idx → EReal) (ix2 j k) := by
  obtain ⟨-, -, -, -, e20, e21, -⟩ := idx_facts t
  rewrite [View.read_apply]
  refine congrArg A ?_
  funext a; apply Fin.ext
  match a with
  | ⟨0, _⟩ => show win0_2.index t (0 : Fin 2) * 64 + 1 * j.val = j.val; rw [e20]; omega
  | ⟨1, _⟩ => show win0_2.index t (1 : Fin 2) * 64 + 1 * k.val = k.val; rw [e21]; omega

theorem whole_brel (A : Buf (Elt Ideal) ((c : Thread nD τ).loc (Pipeline.arrRef spec0 (3 : Fin cfg0.W)))) (t : Fin cfg0.N)
    (k : Fin 64) :
    (((cfg0.win 3).blk t).view.read (Elt Ideal) A : Vec Ideal S1x64 .f32) (ix2 0 k) = (A : S1x64.Idx → EReal) (ix2 0 k) := by
  obtain ⟨-, -, -, -, -, -, e30, e31, -⟩ := idx_facts t
  rewrite [View.read_apply]
  refine congrArg A ?_
  funext a; apply Fin.ext
  match a with
  | ⟨0, _⟩ => show win0_3.index t (0 : Fin 2) * 1 + 1 * 0 = 0; rw [e30]
  | ⟨1, _⟩ => show win0_3.index t (1 : Fin 2) * 64 + 1 * k.val = k.val; rw [e31]; omega

theorem whole_wroot (A : Buf (Elt Ideal) ((c : Thread nD τ).loc (Pipeline.arrRef spec0 (4 : Fin cfg0.W)))) (t : Fin cfg0.N)
    (j k : Fin 64) :
    (((cfg0.win 4).blk t).view.read (Elt Ideal) A : Vec Ideal S64x64 .f32) (ix2 j k) = (A : S64x64.Idx → EReal) (ix2 j k) := by
  obtain ⟨-, -, -, -, -, -, -, -, e40, e41, -⟩ := idx_facts t
  rewrite [View.read_apply]
  refine congrArg A ?_
  funext a; apply Fin.ext
  match a with
  | ⟨0, _⟩ => show win0_4.index t (0 : Fin 2) * 64 + 1 * j.val = j.val; rw [e40]; omega
  | ⟨1, _⟩ => show win0_4.index t (1 : Fin 2) * 64 + 1 * k.val = k.val; rw [e41]; omega

theorem whole_wpred (A : Buf (Elt Ideal) ((c : Thread nD τ).loc (Pipeline.arrRef spec0 (5 : Fin cfg0.W)))) (t : Fin cfg0.N)
    (k : Fin 64) (o : Fin 2) :
    (((cfg0.win 5).blk t).view.read (Elt Ideal) A : Vec Ideal S64x2 .f32) (ix2 k o) = (A : S64x2.Idx → EReal) (ix2 k o) := by
  obtain ⟨-, -, -, -, -, -, -, -, -, -, e50, e51, -⟩ := idx_facts t
  rewrite [View.read_apply]
  refine congrArg A ?_
  funext a; apply Fin.ext
  match a with
  | ⟨0, _⟩ => show win0_5.index t (0 : Fin 2) * 64 + 1 * k.val = k.val; rw [e50]; omega
  | ⟨1, _⟩ => show win0_5.index t (1 : Fin 2) * 2 + 1 * o.val = o.val; rw [e51]; omega

theorem whole_bpred (A : Buf (Elt Ideal) ((c : Thread nD τ).loc (Pipeline.arrRef spec0 (6 : Fin cfg0.W)))) (t : Fin cfg0.N)
    (o : Fin 2) :
    (((cfg0.win 6).blk t).view.read (Elt Ideal) A : Vec Ideal S1x2 .f32) (ix2 0 o) = (A : S1x2.Idx → EReal) (ix2 0 o) := by
  obtain ⟨-, -, -, -, -, -, -, -, -, -, -, -, e60, e61, -⟩ := idx_facts t
  rewrite [View.read_apply]
  refine congrArg A ?_
  funext a; apply Fin.ext
  match a with
  | ⟨0, _⟩ => show win0_6.index t (0 : Fin 2) * 1 + 1 * 0 = 0; rw [e60]
  | ⟨1, _⟩ => show win0_6.index t (1 : Fin 2) * 2 + 1 * o.val = o.val; rw [e61]; omega

/-- Entry `(p, o)` of point `t`'s output block sits at the global entry `(rowAt t p, o)`. -/
theorem out_emb (t : Fin cfg0.N) (p : Fin 10000) (o : Fin 2) :
    ((cfg0.win 7).blk t).view.emb (ix2 p o) = (ix2 (rowAt t p) o : S100000x2.Idx) := by
  obtain ⟨-, -, -, -, -, -, -, -, -, -, -, -, -, -, e71, -⟩ := idx_facts t
  funext a; apply Fin.ext
  match a with
  | ⟨0, _⟩ => show win0_7.index t (0 : Fin 2) * 10000 + 1 * p.val = win0_7.index t (0 : Fin 2) * 10000 + p.val; omega
  | ⟨1, _⟩ => show win0_7.index t (1 : Fin 2) * 2 + 1 * o.val = o.val; rw [e71]; omega

/-- The head at a global entry, written out. -/
theorem headOf_apply (hA aA : S100000x64.Idx → EReal) (wrel wroot : S64x64.Idx → EReal) (b1 : S1x64.Idx → EReal)
    (wp : S64x2.Idx → EReal) (b2 : S1x2.Idx → EReal) (r : Fin 100000) (o : Fin 2) :
    headOf hA aA wrel wroot b1 wp b2 (ix2 r o)
      = (∑ k : Fin 64, ((∑ j : Fin 64, aA (ix2 r j) * wrel (ix2 j k) + ∑ j : Fin 64, hA (ix2 r j) * wroot (ix2 j k)) + b1 (ix2 0 k)) * wp (ix2 k o))
        + b2 (ix2 0 o) := rfl

/-- For ANY contents of the seven staged arrays: what the body leaves for point `t`, read through the output's block, is
    block `t` of the head of those arrays. -/
theorem flushed_core
    (A0 : Buf (Elt Ideal) ((c : Thread nD τ).loc (Pipeline.arrRef spec0 (0 : Fin cfg0.W))))
    (A1 : Buf (Elt Ideal) ((c : Thread nD τ).loc (Pipeline.arrRef spec0 (1 : Fin cfg0.W))))
    (A2 : Buf (Elt Ideal) ((c : Thread nD τ).loc (Pipeline.arrRef spec0 (2 : Fin cfg0.W))))
    (A3 : Buf (Elt Ideal) ((c : Thread nD τ).loc (Pipeline.arrRef spec0 (3 : Fin cfg0.W))))
    (A4 : Buf (Elt Ideal) ((c : Thread nD τ).loc (Pipeline.arrRef spec0 (4 : Fin cfg0.W))))
    (A5 : Buf (Elt Ideal) ((c : Thread nD τ).loc (Pipeline.arrRef spec0 (5 : Fin cfg0.W))))
    (A6 : Buf (Elt Ideal) ((c : Thread nD τ).loc (Pipeline.arrRef spec0 (6 : Fin cfg0.W))))
    (t : Fin cfg0.N) :
    (cfg0.win 7).cut (grid0.coords t)
        (out0_7 (((cfg0.win 0).blk t).view.read (Elt Ideal) A0) (((cfg0.win 1).blk t).view.read (Elt Ideal) A1)
          (((cfg0.win 2).blk t).view.read (Elt Ideal) A2) (((cfg0.win 3).blk t).view.read (Elt Ideal) A3)
          (((cfg0.win 4).blk t).view.read (Elt Ideal) A4) (((cfg0.win 5).blk t).view.read (Elt Ideal) A5)
          (((cfg0.win 6).blk t).view.read (Elt Ideal) A6))
      = ((cfg0.win 7).blk t).view.read (Elt Ideal) (headOf A0 A1 A2 A4 A3 A5 A6) := by
  unfold out0_7
  rewrite [View.canon_unit_zero hz]
  simp only [View.ld_unit_zero (S := S10000x64) hz, View.ld_unit_zero (S := S64x64) hz, View.ld_unit_zero (S := S64x2) hz,
    View.ld_unit_zero (S := S1x64) hz, View.ld_unit_zero (S := S1x2) hz]
  funext y
  obtain ⟨p, o, rfl⟩ : ∃ (p : Fin 10000) (o : Fin 2), y = ix2 p o := ⟨y 0, y 1, eq_ix2 y⟩
  show k0_pay1 (F := Ideal) (((cfg0.win 0).blk t).view.read (Elt Ideal) A0) (((cfg0.win 1).blk t).view.read (Elt Ideal) A1)
      (((cfg0.win 2).blk t).view.read (Elt Ideal) A2) (((cfg0.win 4).blk t).view.read (Elt Ideal) A4)
      (((cfg0.win 5).blk t).view.read (Elt Ideal) A5) (((cfg0.win 3).blk t).view.read (Elt Ideal) A3)
      (((cfg0.win 6).blk t).view.read (Elt Ideal) A6) (ix2 p o)
    = headOf A0 A1 A2 A4 A3 A5 A6 (((cfg0.win 7).blk t).view.emb (ix2 p o))
  refine (Cert.KernelIdeal.Block.pay_apply _ _ _ _ _ _ _ p o).trans ?_
  rewrite [out_emb, headOf_apply]
  refine congrArg₂ (· + ·) (Finset.sum_congr rfl fun k _ => ?_) (whole_bpred A6 t o)
  refine congrArg₂ (· * ·) (congrArg₂ (· + ·) (congrArg₂ (· + ·) (Finset.sum_congr rfl fun j _ => ?_)
    (Finset.sum_congr rfl fun j _ => ?_)) (whole_brel A3 t k)) (whole_wpred A5 t k o)
  · exact congrArg₂ (· * ·) (rows_agg A1 t p j) (whole_wrel A2 t j k)
  · exact congrArg₂ (· * ·) (rows_feats A0 t p j) (whole_wroot A4 t j k)

end Blocks

/-- The launch-time head: `headOf` of the arrays the region finds in its seven input windows. -/
def result (c : Dev nD) : S100000x2.Idx → EReal :=
  headOf (V m c (Pipeline.arrRef spec0 (0 : Fin cfg0.W))) (V m c (Pipeline.arrRef spec0 (1 : Fin cfg0.W)))
    (V m c (Pipeline.arrRef spec0 (2 : Fin cfg0.W))) (V m c (Pipeline.arrRef spec0 (4 : Fin cfg0.W)))
    (V m c (Pipeline.arrRef spec0 (3 : Fin cfg0.W))) (V m c (Pipeline.arrRef spec0 (5 : Fin cfg0.W)))
    (V m c (Pipeline.arrRef spec0 (6 : Fin cfg0.W)))

/-- What point `t` writes back is block `t` of the launch-time head. -/
theorem flushed_eq (c : Dev nD) (t : Fin cfg0.N) :
    (dats m 0 c).flushed 7 t = ((cfg0.win 7).blk t).view.read (Elt Ideal) (result m c) := by
  rewrite [flushed7]
  exact flushed_core (V m c (Pipeline.arrRef spec0 (0 : Fin cfg0.W))) (V m c (Pipeline.arrRef spec0 (1 : Fin cfg0.W)))
    (V m c (Pipeline.arrRef spec0 (2 : Fin cfg0.W))) (V m c (Pipeline.arrRef spec0 (3 : Fin cfg0.W)))
    (V m c (Pipeline.arrRef spec0 (4 : Fin cfg0.W))) (V m c (Pipeline.arrRef spec0 (5 : Fin cfg0.W)))
    (V m c (Pipeline.arrRef spec0 (6 : Fin cfg0.W))) t

/-- An index of the output is in point `t`'s block iff each coordinate is in the block's range on its axis. -/
theorem mem_blk (t : Fin cfg0.N) (i : S100000x2.Idx) :
    i ∈ ((cfg0.win 7).blk t).view.set ↔ ∀ a : Fin 2, win0_7.index t a * S10000x2.size a ≤ (i a).val ∧ (i a).val < win0_7.index t a * S10000x2.size a + S10000x2.size a := by
  show i ∈ ((View.whole main_v11).slice (win0_7.rect t)).set ↔ _
  rw [View.set_slice_whole, Rect.mem_set_unit]
  exact Iff.rfl

/-- The ten row blocks tile the output: node `r` is in the block of point `r / 10000`. -/
theorem cover (i : S100000x2.Idx) : ∃ t : Fin cfg0.N, (cfg0.win 7).flush t = true ∧ i ∈ ((cfg0.win 7).blk t).view.set := by
  have hi0 : (i 0).val < 100000 := (i 0).isLt
  have hi1 : (i 1).val < 2 := (i 1).isLt
  obtain ⟨t, ht⟩ := idx_onto ⟨(i 0).val / 10000, by omega⟩
  have q0 : win0_7.index t (0 : Fin 2) = (i 0).val / 10000 := ht
  obtain ⟨-, -, -, -, -, -, -, -, -, -, -, -, -, -, e71, -⟩ := idx_facts t
  refine ⟨t, flush0_7 t, ?_⟩
  rw [mem_blk]
  intro a
  match a with
  | ⟨0, _⟩ => show win0_7.index t (0 : Fin 2) * 10000 ≤ (i 0).val ∧ (i 0).val < win0_7.index t (0 : Fin 2) * 10000 + 10000; omega
  | ⟨1, _⟩ => show win0_7.index t (1 : Fin 2) * 2 ≤ (i 1).val ∧ (i 1).val < win0_7.index t (1 : Fin 2) * 2 + 2; omega

/-- The output array after the run is the launch-time head. -/
theorem final (c : Dev nD) : (dats m 0 c).arrAt 7 cfg0.N = result m c :=
  (dats m 0 c).arrAt_eq_of_cover 7 (result m c) (fun t _ => flushed_eq m c t) cover

/-- The run, read: the result array at the launch-time head, the arguments unchanged. -/
theorem run : θ_run defs (onTc (τ := τ) (main (F := Ideal))) ⟨m, fun _ => 0, ρ⟩ fun r => ∀ c : Dev nD,
      r.2.mem ((c : Thread nD τ).loc main_v11) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (run_blocks m ρ)

end Cert.KernelIdeal.Hand

end
-- ==== Proof.LibTRef.lean ====
/-
  A typed reference's two transports — contents at the value's type to contents of the buffer and back — cancel.
-/
import Idealize.ShloMosaic.Lib.StableHlo

namespace Idealize.ShloMosaic.StableHlo.TRef

variable {sig : RefSig} {Val : EltTy → Type} {T : BufTy}

/-- Reading back through a typed reference what was put through it is the identity: both are the transport along
    the one equation `ref.ty = T`, in opposite directions. -/
theorem ofBuf_toBuf (x : TRef sig T) (v : T.Contents Val) : x.ofBuf (x.toBuf v) = v := by
  unfold TRef.ofBuf TRef.toBuf
  simp

/-- The other way round. -/
theorem toBuf_ofBuf (x : TRef sig T) (v : x.ref.ty.Contents Val) : x.toBuf (x.ofBuf v) = v := by
  unfold TRef.ofBuf TRef.toBuf
  simp

end Idealize.ShloMosaic.StableHlo.TRef
-- ==== Proof.HeadInputs.lean ====
/-
  What the launch finds in the arrays its windows stage, as functions of the program's arguments: the node features
  (positions and velocities side by side), the aggregated neighbour features (each edge's source row — taken with the
  out-of-range rows filled — added into its destination row), and the two biases as one-row matrices.
-/
import proofs.«408362_j75943611728684_3_alg».proof.Proof.Gen.KernelIdeal.Frame
import proofs.«408362_j75943611728684_3_alg».proof.Proof.LibTRef
import Idealize.ShloMosaic.Lib.StableHlo.Run

noncomputable section

namespace Cert.KernelIdeal.Inputs

open Cert.KernelIdeal Cert.KernelIdeal.Gen Idealize.ShloMosaic Idealize.ShloMosaic.TcCoe Idealize.SL.Sem Idealize.ShloMosaic.StableHlo

variable {F : FTy → Type} [FloatOps F]

/-- Row `r` of the edge list as a vector of 3200000 indices. -/
def edgeRow0 (e : IVec S2x3200000 32) : IVec S3200000 32 :=
  shapeCast S3200000 (extractStridedSlice S1x3200000 ![0, 0] e slices_S2x3200000_S1x3200000_0_0) shapeCasts_S1x3200000_S3200000
@[inherit_doc edgeRow0]
def edgeRow1 (e : IVec S2x3200000 32) : IVec S3200000 32 :=
  shapeCast S3200000 (extractStridedSlice S1x3200000 ![1, 0] e slices_S2x3200000_S1x3200000_1_0) shapeCasts_S1x3200000_S3200000

/-- The source indices with a negative one counted from the end (100000 added), as a column of start indices. -/
def srcStart (e : IVec S2x3200000 32) : IVec S3200000x1 32 :=
  broadcastInDim S3200000x1 ![0] bcast_S3200000_S3200000x1_0
    (select (cmpi .slt (edgeRow0 e) (broadcastInDim S3200000 ![] bcast_S_S3200000 (constantI S_ 32 0#32)))
      (addi (edgeRow0 e) (broadcastInDim S3200000 ![] bcast_S_S3200000 (constantI S_ 32 100000#32))) (edgeRow0 e))

/-- Node features: positions and velocities joined along the feature axis. -/
def feats (x0 x1 : FVec F S100000x32 .f32) : FVec F S100000x64 .f32 :=
  concatenate S100000x64 1 [⟨S100000x32, x0⟩, ⟨S100000x32, x1⟩] concatenates_S100000x32_S100000x32_S100000x64_d1

/-- Which edges' wrapped source index lies in [0, 99999], per edge. -/
def srcInRange (e : IVec S2x3200000 32) : IVec S3200000 1 :=
  Host.reduce IntOp.andi
    (andi (cmpi .sge (srcStart e) (broadcastInDim S3200000x1 ![] bcast_S_S3200000x1 (constantI S_ 32 0#32)))
      (cmpi .sle (srcStart e) (broadcastInDim S3200000x1 ![0, 1] bcast_S1x1_S3200000x1_0_1
        (broadcastInDim S1x1 ![1] bcast_S1_S1x1_1 (constantI S1 32 99999#32)))))
    (constantI S_ 1 1#1) reducesTo_S3200000x1_S3200000_d1 h_S_

/-- The gathered source rows, one per edge (start indices clamped into range). -/
def srcRows (x0 x1 : FVec F S100000x32 .f32) (e : IVec S2x3200000 32) : FVec F S3200000x64 .f32 :=
  Host.gather gather_S100000x64_S3200000x1_S3200000x64_1_0_n_n_0_1_164 (feats x0 x1) (srcStart e)

/-- The messages as the program takes them: the gathered row where the index is in range, a fill value elsewhere. -/
def msgs (x0 x1 : FVec F S100000x32 .f32) (e : IVec S2x3200000 32) : FVec F S3200000x64 .f32 :=
  select (broadcastInDim S3200000x64 ![0] bcast_S3200000_S3200000x64_0 (srcInRange e)) (srcRows x0 x1 e)
    (broadcastInDim S3200000x64 ![] bcast_S_S3200000x64 (constant S_ .f32 0x7FC00000#32))

/-- Messages added into their destination rows, from zero. -/
def aggregate (e : IVec S2x3200000 32) (ms : FVec F S3200000x64 .f32) : FVec F S100000x64 .f32 :=
  Host.scatterAdd scatter_S100000x64_S3200000x1_S3200000x64_1_0_0_1
    (broadcastInDim S100000x64 ![] bcast_S_S100000x64 (constant S_ .f32 0x00000000#32))
    (broadcastInDim S3200000x1 ![0] bcast_S3200000_S3200000x1_0 (edgeRow1 e)) ms

variable (m : (ℓ : Loc nD τ sig) → Buf (Elt F) ℓ)

/-- Window 0's array: the node features. -/
theorem V_feats (c : Dev nD) :
    (V m c main_v0 : S100000x64.Idx → Elt F .f32) = feats (m ((c : Thread nD τ).loc main_arg0)) (m ((c : Thread nD τ).loc main_arg1)) := by
  dsimp only [V]
  simp only [hostOps0, hostOps0_1, hostOps0_2, List.flatten_cons, List.flatten_nil, List.append_nil, List.cons_append, List.nil_append]
  after_results
  rfl

set_option maxHeartbeats 2000000 in
/-- Window 1's array: the aggregated messages. -/
theorem V_agg (c : Dev nD) :
    (V m c main_v8 : S100000x64.Idx → Elt F .f32)
      = aggregate (m ((c : Thread nD τ).loc main_arg2))
          (msgs (m ((c : Thread nD τ).loc main_arg0)) (m ((c : Thread nD τ).loc main_arg1)) (m ((c : Thread nD τ).loc main_arg2))) := by
  dsimp only [V]
  simp only [hostOps0, hostOps0_1, hostOps0_2, List.flatten_cons, List.flatten_nil, List.append_nil, List.cons_append, List.nil_append]
  after_results_simp
  simp only [TRef.ofBuf_toBuf]
  simp only [TRef.ofBuf, cast_eq]
  rfl

/-- Window 3's array: the convolution bias as a 1 × 64 matrix. -/
theorem V_brel (c : Dev nD) :
    (V m c main_v9 : S1x64.Idx → Elt F .f32) = shapeCast S1x64 (m ((c : Thread nD τ).loc main_arg4)) shapeCasts_S64_S1x64 := by
  dsimp only [V]
  simp only [hostOps0, hostOps0_1, hostOps0_2, List.flatten_cons, List.flatten_nil, List.append_nil, List.cons_append, List.nil_append]
  after_results
  rfl

/-- Window 6's array: the prediction bias as a 1 × 2 matrix. -/
theorem V_bpred (c : Dev nD) :
    (V m c main_v10 : S1x2.Idx → Elt F .f32) = shapeCast S1x2 (m ((c : Thread nD τ).loc main_arg7)) shapeCasts_S2_S1x2 := by
  dsimp only [V]
  simp only [hostOps0, hostOps0_1, hostOps0_2, List.flatten_cons, List.flatten_nil, List.append_nil, List.cons_append, List.nil_append]
  after_results
  rfl

end Cert.KernelIdeal.Inputs

end
-- ==== Proof.LibAllOnes.lean ====
/-
  A mask that is everywhere one selects its first branch; an `and`-reduction of ones from one is one; and the
  word arithmetic of a wrapped row index: an index in [-n, n), with n added when it is negative, lies in [0, n - 1].
-/
import Idealize.ShloMosaic.Lib.ReduceAll
import Idealize.ShloMosaic.PureOps.Reduce

namespace Idealize.ShloMosaic

namespace IntOp

/-- A left fold by `and` from one over words that are all one is one. -/
theorem foldl_andi_of_all_one {ι : Type} (f : ι → BitVec 1) :
    ∀ (l : List ι) (init : BitVec 1), init = 1#1 → (∀ n ∈ l, f n = 1#1) → l.foldl (fun r n => andi r (f n)) init = 1#1
  | [], _, h, _ => h
  | a :: l, init, h, hl => by
    refine foldl_andi_of_all_one f l _ ?_ (fun n hn => hl n (List.mem_cons_of_mem _ hn))
    exact andi_eq_one.2 ⟨h, hl a List.mem_cons_self⟩

end IntOp

namespace Host

variable {s t u : Shape} {axes : List (Fin s.rank)}

/-- An `and`-reduction, started at one, of an array of ones is one at every result index. -/
theorem reduce_andi_of_all_one (x : s.Idx → BitVec 1) (init : u.Idx → BitVec 1) (h : s.ReducesTo axes t) (hu : 0 < u.numel)
    (hx : ∀ i, x i = 1#1) (hinit : ∀ k, init k = 1#1) (j : t.Idx) : Host.reduce IntOp.andi x init h hu j = 1#1 := by
  rw [Host.reduce_eq_foldl]
  exact IntOp.foldl_andi_of_all_one x _ _ (hinit _) (fun i _ => hx i)

end Host

/-- A selection under a mask that is one everywhere is its first branch. -/
theorem select_of_all_one {s : Shape} {α : Type} (c : IVec s 1) (a b : s.Idx → α) (hc : ∀ i, c i = 1#1) :
    select c a b = a := by
  funext i
  show Scalar.select (c i) (a i) (b i) = a i
  unfold Scalar.select
  exact if_pos (hc i)

/-- The wrapped index: a signed word in [-100000, 100000), with 100000 added when it is negative, is in
    [0, 99999] — the row it names, counted from the end when negative, exists. -/
theorem wrapped_index_in_range (w : BitVec 32) (hlo : -100000 ≤ w.toInt) (hhi : w.toInt < 100000) :
    0 ≤ (Scalar.select (IntOp.cmpi .slt w 0#32) (IntOp.addi w 100000#32) w).toInt
      ∧ (Scalar.select (IntOp.cmpi .slt w 0#32) (IntOp.addi w 100000#32) w).toInt ≤ 99999 := by
  unfold Scalar.select
  by_cases hneg : IntOp.cmpi .slt w 0#32 = 1
  · rw [if_pos hneg]
    have h0 : w.toInt < 0 := by
      have := IntOp.cmpi_slt.1 hneg
      simpa using this
    have hadd : (IntOp.addi w 100000#32).toInt = w.toInt + 100000 := by
      unfold IntOp.addi
      rw [BitVec.toInt_add]
      have : (100000#32 : BitVec 32).toInt = 100000 := by decide
      rw [this]
      exact Int.bmod_eq_of_le (by omega) (by omega)
    rw [hadd]
    omega
  · rw [if_neg hneg]
    have h0 : ¬ w.toInt < 0 := fun h => hneg (IntOp.cmpi_slt.2 (by simpa using h))
    omega

end Idealize.ShloMosaic
-- ==== Proof.HeadMask.lean ====
/-
  With every source index in [-100000, 100000) no message row is filled: the wrapped index of every edge lies in
  [0, 99999], so the range test is one at every edge and the selection keeps the gathered row.
-/
import proofs.«408362_j75943611728684_3_alg».proof.Proof.HeadInputs
import proofs.«408362_j75943611728684_3_alg».proof.Proof.LibAllOnes

noncomputable section

namespace Cert.KernelIdeal.Inputs

open Cert.KernelIdeal Cert.KernelIdeal.Gen Idealize.ShloMosaic

variable {F : FTy → Type} [FloatOps F]

/-- A start index is the wrapped source index of its edge. -/
theorem srcStart_apply (e : IVec S2x3200000 32) (i : S3200000x1.Idx) :
    ∃ k : S3200000.Idx, srcStart e i
      = Scalar.select (IntOp.cmpi .slt (edgeRow0 e k) 0#32) (IntOp.addi (edgeRow0 e k) 100000#32) (edgeRow0 e k) :=
  ⟨_, rfl⟩

/-- The range test passes at every edge. -/
theorem srcInRange_all (e : IVec S2x3200000 32)
    (hr : ∀ k : S3200000.Idx, -100000 ≤ (edgeRow0 e k).toInt ∧ (edgeRow0 e k).toInt < 100000) (j : S3200000.Idx) :
    srcInRange e j = 1#1 := by
  unfold srcInRange
  refine Host.reduce_andi_of_all_one _ _ _ _ (fun i => ?_) (fun _ => rfl) j
  obtain ⟨k, hk⟩ := srcStart_apply e i
  have hw := wrapped_index_in_range (edgeRow0 e k) (hr k).1 (hr k).2
  rw [← hk] at hw
  show IntOp.andi (IntOp.cmpi .sge (srcStart e i) 0#32) (IntOp.cmpi .sle (srcStart e i) 99999#32) = 1#1
  refine IntOp.andi_eq_one.2 ⟨IntOp.cmpi_sge.2 ?_, IntOp.cmpi_sle.2 ?_⟩
  · rw [show (0#32 : BitVec 32).toInt = 0 from by decide]; exact hw.1
  · rw [show (99999#32 : BitVec 32).toInt = 99999 from by decide]; exact hw.2

/-- So the messages are the gathered source rows. -/
theorem msgs_eq_srcRows (x0 x1 : FVec F S100000x32 .f32) (e : IVec S2x3200000 32)
    (hr : ∀ k : S3200000.Idx, -100000 ≤ (edgeRow0 e k).toInt ∧ (edgeRow0 e k).toInt < 100000) :
    msgs x0 x1 e = srcRows x0 x1 e := by
  unfold msgs
  exact select_of_all_one _ _ _ (fun j => srcInRange_all e hr _)

end Cert.KernelIdeal.Inputs

end
-- ==== Proof.HeadArgs.lean ====
/-
  The kernel's result as the head of the program's ARGUMENTS: the launch finds the node features and the aggregated
  source rows in its first two windows (no row is filled when the source indices are in range), the weights as given,
  and each bias as the one-row matrix of the bias vector.
-/
import proofs.«408362_j75943611728684_3_alg».proof.Proof.HeadValue
import proofs.«408362_j75943611728684_3_alg».proof.Proof.HeadMask

noncomputable section

namespace Cert.KernelIdeal.Hand

open Cert.KernelIdeal Cert.KernelIdeal.Gen Cert.KernelIdeal.Inputs Idealize.ShloMosaic Idealize.ShloMosaic.TcCoe Idealize.SL.Sem
open Idealize.ShloMosaic.ValueIdx

variable (m : (ℓ : Loc nD τ sig) → Buf (Elt Ideal) ℓ)

/-- A vector of 64 as a 1 × 64 matrix, read in row 0. -/
theorem row64_apply {α : Type} (b : S64.Idx → α) (k : S64.Idx) :
    shapeCast S1x64 b shapeCasts_S64_S1x64 (ix2 0 (k 0)) = b k :=
  shapeCast_apply b shapeCasts_S64_S1x64 (ix2 0 (k 0)) k (by
    rw [Shape.rowMajor_val_two, Shape.rowMajor_val_one]; show (k 0).val = 0 * 64 + (k 0).val; omega)

/-- A vector of 2 as a 1 × 2 matrix, read in row 0. -/
theorem row2_apply {α : Type} (b : S2.Idx → α) (o : S2.Idx) :
    shapeCast S1x2 b shapeCasts_S2_S1x2 (ix2 0 (o 0)) = b o :=
  shapeCast_apply b shapeCasts_S2_S1x2 (ix2 0 (o 0)) o (by
    rw [Shape.rowMajor_val_two, Shape.rowMajor_val_one]; show (o 0).val = 0 * 2 + (o 0).val; omega)

/-- With the source indices in range, the kernel's result is the head of the node features and of the source rows
    added into their destination rows. -/
theorem result_args (c : Dev nD)
    (hr : ∀ k : S3200000.Idx, -100000 ≤ (edgeRow0 (m ((c : Thread nD τ).loc main_arg2)) k).toInt
      ∧ (edgeRow0 (m ((c : Thread nD τ).loc main_arg2)) k).toInt < 100000) :
    result m c = Cert.GraphHead.head
      (feats (F := Ideal) (m ((c : Thread nD τ).loc main_arg0)) (m ((c : Thread nD τ).loc main_arg1)))
      (aggregate (F := Ideal) (m ((c : Thread nD τ).loc main_arg2))
        (srcRows (F := Ideal) (m ((c : Thread nD τ).loc main_arg0)) (m ((c : Thread nD τ).loc main_arg1)) (m ((c : Thread nD τ).loc main_arg2))))
      (m ((c : Thread nD τ).loc main_arg3)) (m ((c : Thread nD τ).loc main_arg5)) (m ((c : Thread nD τ).loc main_arg4))
      (m ((c : Thread nD τ).loc main_arg6)) (m ((c : Thread nD τ).loc main_arg7)) := by
  have a0 : V m c (Pipeline.arrRef spec0 (0 : Fin cfg0.W)) = feats (F := Ideal) (m ((c : Thread nD τ).loc main_arg0)) (m ((c : Thread nD τ).loc main_arg1)) := V_feats m c
  have a1 : V m c (Pipeline.arrRef spec0 (1 : Fin cfg0.W)) = aggregate (F := Ideal) (m ((c : Thread nD τ).loc main_arg2))
      (msgs (F := Ideal) (m ((c : Thread nD τ).loc main_arg0)) (m ((c : Thread nD τ).loc main_arg1)) (m ((c : Thread nD τ).loc main_arg2))) := V_agg m c
  have a2 : V m c (Pipeline.arrRef spec0 (2 : Fin cfg0.W)) = m ((c : Thread nD τ).loc main_arg3) := V_main_arg3 m c
  have a3 : V m c (Pipeline.arrRef spec0 (3 : Fin cfg0.W)) = shapeCast S1x64 (m ((c : Thread nD τ).loc main_arg4)) shapeCasts_S64_S1x64 := V_brel m c
  have a4 : V m c (Pipeline.arrRef spec0 (4 : Fin cfg0.W)) = m ((c : Thread nD τ).loc main_arg5) := V_main_arg5 m c
  have a5 : V m c (Pipeline.arrRef spec0 (5 : Fin cfg0.W)) = m ((c : Thread nD τ).loc main_arg6) := V_main_arg6 m c
  have a6 : V m c (Pipeline.arrRef spec0 (6 : Fin cfg0.W)) = shapeCast S1x2 (m ((c : Thread nD τ).loc main_arg7)) shapeCasts_S2_S1x2 := V_bpred m c
  unfold result headOf
  rewrite [a0, a1, a2, a3, a4, a5, a6, msgs_eq_srcRows _ _ _ hr]
  congr 1
  · funext k; exact row64_apply _ k
  · funext o; exact row2_apply _ o

end Cert.KernelIdeal.Hand

end
-- ==== Proof.RefHead.lean ====
/-
  The reference's result is the head of its own node features and aggregated features: its three `dot_general`s are the
  sums over the contracted feature axis, its biases broadcast along the rows, and its convolution adds the bias before
  the node's own term where the head adds it after — the same extended real.
-/
import proofs.«408362_j75943611728684_3_alg».proof.Proof.Gen.ReferenceIdeal.Read
import proofs.«408362_j75943611728684_3_alg».proof.Proof.HeadSpec

noncomputable section

open scoped BigOperators

namespace Cert.ReferenceIdeal.RefValue

open Cert.ReferenceIdeal Cert.ReferenceIdeal.Gen Cert.ReferenceIdeal.Read Idealize.ShloMosaic Idealize.ShloMosaic.ValueIdx

/-- The reference's last stage, index by index, is the head of its concatenated features and its scattered sums. -/
theorem result_eq (x0 x1 : (⟨S100000x32, .f32⟩ : BufTy).Contents (Elt Ideal)) (x2 : (⟨S2x3200000, .i32⟩ : BufTy).Contents (Elt Ideal))
    (x3 : (⟨S64x64, .f32⟩ : BufTy).Contents (Elt Ideal)) (x4 : (⟨S64, .f32⟩ : BufTy).Contents (Elt Ideal))
    (x5 : (⟨S64x64, .f32⟩ : BufTy).Contents (Elt Ideal)) (x6 : (⟨S64x2, .f32⟩ : BufTy).Contents (Elt Ideal))
    (x7 : (⟨S2, .f32⟩ : BufTy).Contents (Elt Ideal)) :
    val_main_v24 (F := Ideal) x0 x1 x2 x3 x4 x5 x6 x7
      = Cert.GraphHead.head (val_main_v0 (F := Ideal) x0 x1) (val_main_v14 (F := Ideal) x0 x1 x2) x3 x5 x4 x6 x7 := by
  funext i
  obtain ⟨r, o, rfl⟩ : ∃ (r : Fin 100000) (o : Fin 2), i = ix2 r o := ⟨i 0, i 1, eq_ix2 i⟩
  have eb : idx_main_v22 (idx_main_v23 (ix2 r o)) = ix1 o := funext fun a => by match a with | ⟨0, _⟩ => rfl
  rw [val_main_v24_apply, val_main_v21_apply, val_main_v23_apply, val_main_v22_apply, eb]
  simp only [Ideal.addf_def]
  unfold Cert.GraphHead.head
  refine congrArg₂ (· + ·) (Finset.sum_congr rfl fun k _ => ?_) rfl
  have e1 : lidx_main_v21 (ix2 r o) k = ix2 r k := funext fun a => by match a with | ⟨0, _⟩ => rfl | ⟨1, _⟩ => rfl
  have e2 : ridx_main_v21 (ix2 r o) k = ix2 k o := funext fun a => by match a with | ⟨0, _⟩ => rfl | ⟨1, _⟩ => rfl
  have ec : idx_main_v16 (idx_main_v17 (ix2 r k)) = ix1 k := funext fun a => by match a with | ⟨0, _⟩ => rfl
  rw [e1, e2, val_main_v20_apply, val_main_v18_apply, val_main_v15_apply, val_main_v19_apply, val_main_v17_apply, val_main_v16_apply, ec]
  simp only [Ideal.addf_def]
  refine congrArg₂ (· * ·) ?_ rfl
  refine Eq.trans ?_ (Cert.GraphHead.conv_bias_first _ _ _ _ _ r k)
  refine congrArg₂ (· + ·) (congrArg₂ (· + ·) (Finset.sum_congr rfl fun j _ => ?_) rfl) (Finset.sum_congr rfl fun j _ => ?_)
  · have e3 : lidx_main_v15 (ix2 r k) j = ix2 r j := funext fun a => by match a with | ⟨0, _⟩ => rfl | ⟨1, _⟩ => rfl
    have e4 : ridx_main_v15 (ix2 r k) j = ix2 j k := funext fun a => by match a with | ⟨0, _⟩ => rfl | ⟨1, _⟩ => rfl
    rw [e3, e4]
  · have e5 : lidx_main_v19 (ix2 r k) j = ix2 r j := funext fun a => by match a with | ⟨0, _⟩ => rfl | ⟨1, _⟩ => rfl
    have e6 : ridx_main_v19 (ix2 r k) j = ix2 j k := funext fun a => by match a with | ⟨0, _⟩ => rfl | ⟨1, _⟩ => rfl
    rw [e5, e6]

end Cert.ReferenceIdeal.RefValue

end
-- ==== Proof.PreDecode.lean ====
/-
  The precondition read back at one edge: where it holds, every source index of the edge list lies in [-100000, 100000).
-/
import proofs.«408362_j75943611728684_3_alg».proof.Proof.Gen.Pre_finite_inputs
import Idealize.ShloMosaic.Lib.ReduceAll
import Idealize.ShloMosaic.Lib.ValueIdx

noncomputable section

namespace Cert.Pre_finite_inputs.Decode

open Cert.Pre_finite_inputs Cert.Pre_finite_inputs.Gen Idealize.ShloMosaic

instance : Subsingleton S_.Idx := ⟨fun a b => funext fun d => d.elim0⟩

variable {F : FTy → Type} [FloatOps F]

/-- Row 0 of the edge list (the source indices), as the precondition reads it. -/
def srcRow (e : IVec S2x3200000 32) : IVec S3200000 32 :=
  shapeCast S3200000 (extractStridedSlice S1x3200000 ![0, 0] e slices_S2x3200000_S1x3200000_0_0) shapeCasts_S1x3200000_S3200000

/-- Under the precondition every source index is at least -100000 and below 100000: the last two conjuncts, each a
    conjunction over all edges of a signed comparison with a constant. -/
theorem src_bounds (a0 a1 : FVec F S100000x32 .f32) (e : IVec S2x3200000 32) (a3 : FVec F S64x64 .f32) (a4 : FVec F S64 .f32)
    (a5 : FVec F S64x64 .f32) (a6 : FVec F S64x2 .f32) (a7 : FVec F S2 .f32)
    (h : fn (F := F) a0 a1 e a3 a4 a5 a6 a7 = fun _ => 1#1) (i : S3200000.Idx) :
    -100000 ≤ (srcRow e i).toInt ∧ (srcRow e i).toInt < 100000 := by
  have h0 := congrFun h ValueIdx.ix0
  dsimp only [fn, fn_part1, fn_part2] at h0
  obtain ⟨h12, h3⟩ := IntOp.andi_eq_one.1 h0
  obtain ⟨-, h2⟩ := IntOp.andi_eq_one.1 h12
  have hge := Host.reduce_andi_all _ _ _ _ _ h2 i
  have hlt := Host.reduce_andi_all _ _ _ _ _ h3 i
  have hge' : (4294867296#32 : BitVec 32).toInt ≤ (srcRow e i).toInt := IntOp.cmpi_sge.1 hge
  have hlt' : (srcRow e i).toInt < (100000#32 : BitVec 32).toInt := IntOp.cmpi_slt.1 hlt
  rw [show (4294867296#32 : BitVec 32).toInt = -100000 from by decide] at hge'
  rw [show (100000#32 : BitVec 32).toInt = 100000 from by decide] at hlt'
  exact ⟨hge', hlt'⟩

end Cert.Pre_finite_inputs.Decode

end
-- ==== Proof.lean ====
/-
  The kernel computes a graph-convolution head: node features h = [pos | vel], messages h[src] added into their
  destination rows (agg), then  out = ((agg · W_rel + h · W_root) + b_rel) · W_pred + b_pred,  the dense part in one
  launch over ten blocks of 10000 nodes. The reference computes  ((agg · W_rel + b_rel) + h · W_root) · W_pred + b_pred
  on whole arrays.

  The two differ in one place before the dense part: the kernel's row gather fills a row whose (wrapped) source index
  is out of range, the reference's gather clamps the index. The precondition therefore asks, beside finite float
  inputs, that every source index lie in [-100000, 100000) — the indices for which row selection is defined; there no
  row is filled and both gathers read the same rows. After that the two results are the same extended real entry by
  entry: each matrix product is the sum over the 64 contracted features on both sides, the format changes are the
  identity, and the three-term sum is reordered by commutativity and associativity of addition alone.
-/
import proofs.«408362_j75943611728684_3_alg».proof.Defs
import proofs.«408362_j75943611728684_3_alg».proof.Proof.Gen.Kernel
import proofs.«408362_j75943611728684_3_alg».proof.Proof.Gen.Kernel.Skeleton
import proofs.«408362_j75943611728684_3_alg».proof.Proof.Gen.Kernel.Launch
import proofs.«408362_j75943611728684_3_alg».proof.Proof.Gen.Kernel.Points
import proofs.«408362_j75943611728684_3_alg».proof.Proof.Gen.Kernel.Frame
import proofs.«408362_j75943611728684_3_alg».proof.Proof.Gen.KernelIdeal
import proofs.«408362_j75943611728684_3_alg».proof.Proof.Gen.KernelIdeal.Skeleton
import proofs.«408362_j75943611728684_3_alg».proof.Proof.Gen.KernelIdeal.Launch
import proofs.«408362_j75943611728684_3_alg».proof.Proof.Gen.KernelIdeal.Points
import proofs.«408362_j75943611728684_3_alg».proof.Proof.Gen.KernelIdeal.Frame
import proofs.«408362_j75943611728684_3_alg».proof.Proof.Gen.ReferenceIdeal
import proofs.«408362_j75943611728684_3_alg».proof.Proof.Gen.Pre_finite_inputs
import proofs.«408362_j75943611728684_3_alg».proof.Proof.Gen.KernelIdeal.Value
import proofs.«408362_j75943611728684_3_alg».proof.Proof.Gen.ReferenceIdeal.Run
import proofs.«408362_j75943611728684_3_alg».proof.Proof.Gen.ReferenceIdeal.Read
import proofs.«408362_j75943611728684_3_alg».proof.Proof.HeadArgs
import proofs.«408362_j75943611728684_3_alg».proof.Proof.RefHead
import proofs.«408362_j75943611728684_3_alg».proof.Proof.PreDecode
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is a straight line of array operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The reference's node features and its scattered sums are the kernel's, operation for operation. -/
theorem feats_eq (x0 x1 : FVec Ideal Cert.KernelIdeal.S100000x32 .f32) :
    Cert.ReferenceIdeal.Read.val_main_v0 (F := Ideal) x0 x1 = Cert.KernelIdeal.Inputs.feats x0 x1 := rfl

theorem agg_eq (x0 x1 : FVec Ideal Cert.KernelIdeal.S100000x32 .f32) (e : IVec Cert.KernelIdeal.S2x3200000 32) :
    Cert.ReferenceIdeal.Read.val_main_v14 (F := Ideal) x0 x1 e
      = Cert.KernelIdeal.Inputs.aggregate e (Cert.KernelIdeal.Inputs.srcRows x0 x1 e) := rfl

/-- Over the extended reals, from memories that agree on the arguments and satisfy the precondition, both programs end
    with the head of the same features, aggregated rows, weights and biases. -/
theorem algebraic : Cert.algebraic_KernelIdeal_ReferenceIdeal := by
  intro m ρ m' ρ' hpre hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [h0, h1, h2, h3, h4, h5, h6, h7, Cert.ReferenceIdeal.Read.val_main_v24_eq, Cert.ReferenceIdeal.RefValue.result_eq,
    feats_eq, agg_eq]
  exact (Cert.KernelIdeal.Hand.result_args m c
    (fun k => Cert.Pre_finite_inputs.Decode.src_bounds _ _ _ _ _ _ _ _ (hpre c) k)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
